-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096 : Shape := ⟨1, ![4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S256x4096 .f32) (main_arg1 : FVec F S4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S256x4096 : Shape := ⟨2, ![256, 4096]⟩
abbrev S4096 : Shape := ⟨1, ![4096]⟩
abbrev S1x4096 : Shape := ⟨2, ![1, 4096]⟩
abbrev S256x100x4096 : Shape := ⟨3, ![256, 100, 4096]⟩
abbrev S128x128 : Shape := ⟨2, ![128, 128]⟩
abbrev S1x128 : Shape := ⟨2, ![1, 128]⟩
abbrev S128x100x128 : Shape := ⟨3, ![128, 100, 128]⟩
abbrev S128x1x128 : Shape := ⟨3, ![128, 1, 128]⟩

abbrev nBuf : Space → Nat
  | .hbm => 4
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S1x4096, .f32⟩
  | .hbm, ⟨3, _⟩ => ⟨S256x100x4096, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S128x100x128, .f32⟩
  | .local _ .vmem, ⟨5, _⟩ => ⟨S128x100x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x100x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4096_S1x4096 : S4096.ShapeCasts S1x4096
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S128x128_S128x1x128 : S128x128.ShapeCasts S128x1x128
  iota_S128x100x128_d1_w32 : S128x100x128.Iotas .tc 32 [1]
  broadcasts_S128x1x128_S128x100x128 : S128x1x128.Broadcasts S128x100x128
  natLt_1_32 : 1 < 32
  inb_S128x100x128_S128x100x128_0_0_0 : ∀ a, (![0, 0, 0] : Fin 3 → Nat) a + S128x100x128.size a ≤ S128x100x128.size a
  h_S128x100x128 : 0 < S128x100x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S256x4096.size a
  hwx0_0 : ∀ i : grid0.Coords, EltTy.bits .f32 = 32 ∨ (Rect.block (s := S256x4096) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x4096.size a
  hwx0_1 : ∀ i : grid0.Coords, EltTy.bits .f32 = 32 ∨ (Rect.block (s := S1x4096) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x100x128.size a ≤ S256x100x4096.size a
  hwx0_2 : ∀ i : grid0.Coords, EltTy.bits .f32 = 32 ∨ (Rect.block (s := S256x100x4096) S128x100x128.size (cc0_transform_2 i) (hinb0_2 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x100x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x4096 : Shape := ⟨2, ![256, 4096]⟩
abbrev S4096 : Shape := ⟨1, ![4096]⟩
abbrev S1x4096 : Shape := ⟨2, ![1, 4096]⟩
abbrev S_ : Shape := ⟨0, ![]⟩
abbrev S100 : Shape := ⟨1, ![100]⟩
abbrev S1x100x1 : Shape := ⟨3, ![1, 100, 1]⟩
abbrev S256x1x4096 : Shape := ⟨3, ![256, 1, 4096]⟩
abbrev S256x100x4096 : Shape := ⟨3, ![256, 100, 4096]⟩

abbrev nBuf : Space → Nat
  | .hbm => 27
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S1x4096, .f32⟩
  | .hbm, ⟨3, _⟩ => ⟨S256x4096, .f32⟩
  | .hbm, ⟨4, _⟩ => ⟨S256x4096, .f32⟩
  | .hbm, ⟨5, _⟩ => ⟨S_, .f32⟩
  | .hbm, ⟨6, _⟩ => ⟨S256x4096, .f32⟩
  | .hbm, ⟨7, _⟩ => ⟨S256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S256x4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S256x4096, .i32⟩
  | .hbm, ⟨16, _⟩ => ⟨S256x4096, .i32⟩
  | .hbm, ⟨17, _⟩ => ⟨S_, .i32⟩
  | .hbm, ⟨18, _⟩ => ⟨S256x4096, .i32⟩
  | .hbm, ⟨19, _⟩ => ⟨S256x4096, .i32⟩
  | .hbm, ⟨20, _⟩ => ⟨S100, .i32⟩
  | .hbm, ⟨21, _⟩ => ⟨S1x100x1, .i32⟩
  | .hbm, ⟨22, _⟩ => ⟨S256x1x4096, .i32⟩
  | .hbm, ⟨23, _⟩ => ⟨S256x100x4096, .i32⟩
  | .hbm, ⟨24, _⟩ => ⟨S256x100x4096, .i32⟩
  | .hbm, ⟨25, _⟩ => ⟨S256x100x4096, .i1⟩
  | .hbm, ⟨26, _⟩ => ⟨S256x100x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  bcast_S_S256x4096 : S_.BroadcastsInDim S256x4096 (![] : Fin 0 → Fin S256x4096.rank)
  bcast_S100_S1x100x1_1 : S100.BroadcastsInDim S1x100x1 (![1] : Fin 1 → Fin S1x100x1.rank)
  bcast_S256x4096_S256x1x4096_0_2 : S256x4096.BroadcastsInDim S256x1x4096 (![0, 2] : Fin 2 → Fin S256x1x4096.rank)
  bcast_S1x100x1_S256x100x4096_0_1_2 : S1x100x1.BroadcastsInDim S256x100x4096 (![0, 1, 2] : Fin 3 → Fin S256x100x4096.rank)
  bcast_S256x1x4096_S256x100x4096_0_1_2 : S256x1x4096.BroadcastsInDim S256x100x4096 (![0, 1, 2] : Fin 3 → Fin S256x100x4096.rank)

variable [Facts₀]

class Facts : Prop extends Facts₀ where

variable [Facts]
-- ==== Proof.Spikes.lean ====
/-
  One-hot spike times, as a function of the inputs index by index.

  For an input `x` of shape [256, 4096] and delays `d` of shape [4096], the spike time of entry (b, f) is the number
  (1 - x[b,f] * d[f]) * 99 converted to a signed 32-bit integer and clipped to the range [0, 99]; the result array, of shape
  [256, 100, 4096], holds at (b, t, f) the number 1 when the time step t is that spike time and 0 otherwise. Both
  programs compute exactly this: the same product, difference and scaling, the same conversion, the same clip (a maximum
  with 0 then a minimum with 99), and a comparison of the time step with the clipped value. So no algebraic law joins the
  two sides; what differs is only how the value is laid out while it is computed (a unit time axis inserted and
  broadcast, against `broadcast_in_dim`s) and how the one-bit comparison becomes a float (zero-extended to 32 bits and
  read as a signed integer, against read directly as an unsigned integer): both read 0 as 0 and 1 as 1.

  This module states the function, the two layout readings over a unit middle axis, and the one-bit fact.
-/
import Idealize.ShloMosaic.PureOps.Ideal
import Idealize.ShloMosaic.Lib.ValueIdx
import Idealize.ShloMosaic.Lib.ValueLayout

noncomputable section

namespace Cert.Spikes

open Idealize.ShloMosaic Idealize.ShloMosaic.ValueIdx

/-! ## The function -/

section Spec
variable {F : FTy → Type} [FloatOps F]

/-- The spike time of one entry: `(1 - a * b) * 99` converted to a signed 32-bit integer, then clipped below at 0 and
    above at 99. The two float words are 1.0 and 99.0. -/
def spikeTime (a b : F .f32) : BitVec 32 :=
  IntOp.minsi 99#32 (IntOp.maxsi 0#32 (FloatOps.fptosi 32
    (FloatOps.mulf (FloatOps.subf (FloatOps.ofBits .f32 0x3F800000#32) (FloatOps.mulf a b))
      (FloatOps.ofBits .f32 0x42C60000#32))))

/-- Whether time step `t` is the spike time `st`, as a float: the one-bit comparison read as an unsigned integer. -/
def atStep (t : ℕ) (st : BitVec 32) : F .f32 :=
  FloatOps.uitofp .f32 (IntOp.cmpi .eq (BitVec.ofNat 32 t) st)

/-- The whole result: at (b, t, f), whether `t` is the spike time of `x[b, f]` and `d[f]`. -/
def spikes (x : (⟨2, ![256, 4096]⟩ : Shape).Idx → F .f32) (d : (⟨1, ![4096]⟩ : Shape).Idx → F .f32) :
    (⟨3, ![256, 100, 4096]⟩ : Shape).Idx → F .f32 :=
  fun i => atStep (i 1).val (spikeTime (x (ix2 (i 0) (i 2))) (d (ix1 (i 2))))

end Spec

/-! ## A unit middle axis: inserted by a shape cast, then broadcast -/

section Layout
variable {α : Type}

/-- An `[a, b]` array cast to `[a, 1, b]` reads, at `(i, u, j)`, the operand at `(i, j)`: the two row-major positions
    agree because the middle coordinate is 0. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, n, b]` reads, at `(i, t, j)`, the operand at `(i, 0, j)`. -/
theorem broadcastTo_a1b_anb_apply {a n b : ℕ} (x : (⟨3, ![a, 1, b]⟩ : Shape).Idx → α)
    (h : (⟨3, ![a, 1, b]⟩ : Shape).Broadcasts ⟨3, ![a, n, b]⟩) (i : Fin a) (t : Fin n) (j : Fin b) :
    broadcastTo ⟨3, ![a, n, b]⟩ x h (ix3 i t j) = x (ix3 i (0 : Fin 1) j) := by
  refine broadcastTo_apply x h (ix3 i t j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- The two together: a matrix given a unit middle axis and broadcast along it reads, at `(i, t, j)`, the matrix at
    `(i, j)`, whatever `t`. -/
theorem broadcast_middle_apply {a n b : ℕ} (x : (⟨2, ![a, b]⟩ : Shape).Idx → α)
    (h : (⟨2, ![a, b]⟩ : Shape).ShapeCasts ⟨3, ![a, 1, b]⟩) (h' : (⟨3, ![a, 1, b]⟩ : Shape).Broadcasts ⟨3, ![a, n, b]⟩)
    (i : Fin a) (t : Fin n) (j : Fin b) :
    broadcastTo ⟨3, ![a, n, b]⟩ (shapeCast ⟨3, ![a, 1, b]⟩ x h) h' (ix3 i t j) = x (ix2 i j) :=
  (broadcastTo_a1b_anb_apply _ h' i t j).trans (shapeCast_ab_a1b_apply x h i 0 j)

end Layout

/-! ## A one-bit value as a float, two ways -/

/-- A single bit, zero-extended to 32 bits and read as a SIGNED integer, is the bit read as an UNSIGNED integer: 0 or 1
    either way, so the two conversions to a float agree on the extended reals. -/
theorem sitofp_setWidth_bit (b : BitVec 1) :
    FloatOps.sitofp (F := Ideal) .f32 (b.setWidth 32) = FloatOps.uitofp (F := Ideal) .f32 b := by
  have h : (b.setWidth 32).toInt = (b.toNat : ℤ) := by
    by_cases hb : b = 1#1
    · subst hb; decide
    · rw [eq_zero_of_ne_one hb]; decide
  show (((b.setWidth 32).toInt : ℝ) : EReal) = ((b.toNat : ℝ) : EReal)
  rw [h, Int.cast_natCast]

end Cert.Spikes

end
-- ==== Proof.KernelSpikes.lean ====
/-
  The kernel's result array is the one-hot spike-time function of its arguments.

  The kernel runs on a 2 x 32 grid. At point (g0, g1) its body loads rows 128*g0 .. 128*g0+127 and columns
  128*g1 .. 128*g1+127 of `x`, and the same columns of the delays (one row), computes the clipped spike times of
  those entries, gives them a unit time axis, broadcasts along it, compares with the time step (an iota along the time
  axis), and stores the comparison, zero-extended and read as a signed integer, as the whole output block: rows and
  columns as loaded, all 100 time steps. So the block written back at a point is the restriction of ONE function of
  the whole arrays to the block's rectangle; the 64 blocks tile the result array; hence the array ends holding that
  function everywhere. The delays reach the kernel as a [1, 4096] array, the [4096] argument reshaped: row 0 of it at
  column f is delay f.
-/
import proofs.«111063_j78632261255776_1_alg».proof.Proof.Gen.KernelIdeal.Value
import proofs.«111063_j78632261255776_1_alg».proof.Proof.Spikes
import Idealize.ShloMosaic.Lib.Pipeline.Value
import Idealize.ShloMosaic.Lib.ValueLayout
import Idealize.ShloMosaic.Lib.StableHlo.Run

noncomputable section

namespace Cert.KernelIdeal.Spikes

open Cert.KernelIdeal Cert.KernelIdeal.Gen Idealize.ShloMosaic Idealize.ShloMosaic.TcCoe Idealize.SL.Sem
open Idealize.ShloMosaic.ValueIdx Cert.Spikes
open Idealize.ShloMosaic.Pipeline (Dat)

/-! ## Elementwise operations read at an index -/

section Pointwise
variable {F : FTy → Type} [FloatOps F] {s : Shape} {φ : FTy} {w : ℕ}
theorem cmpi_at (pr : CmpIPredicate) (a b : IVec s w) (i : s.Idx) : cmpi pr a b i = IntOp.cmpi pr (a i) (b i) := rfl
theorem minsi_at (a b : IVec s w) (i : s.Idx) : minsi a b i = IntOp.minsi (a i) (b i) := rfl
theorem maxsi_at (a b : IVec s w) (i : s.Idx) : maxsi a b i = IntOp.maxsi (a i) (b i) := rfl
theorem fptosi_at (a : FVec F s φ) (i : s.Idx) : fptosi w a i = FloatOps.fptosi w (a i) := rfl
theorem mulf_at (a b : FVec F s φ) (i : s.Idx) : mulf a b i = FloatOps.mulf (a i) (b i) := rfl
theorem subf_at (a b : FVec F s φ) (i : s.Idx) : subf a b i = FloatOps.subf (a i) (b i) := rfl
end Pointwise

/-! ## The body's stored value at an index -/

/-- The value the body stores, at (p, s, q) of the block: whether `s` is the spike time of the loaded `x` entry
    (p, q) and the loaded delay q. The iota reads the time coordinate, the broadcast over the inserted time axis reads
    the clipped entry (p, q), the one row of delays is read at column q, and the one-bit comparison becomes 0 or 1
    either way it is converted. -/
theorem stored_at (v0 : Vec Ideal S128x128 .f32) (v1 : Vec Ideal S1x128 .f32) (p : Fin 128) (s : Fin 100) (q : Fin 128) :
    k0_pay1 (F := Ideal) v0 v1 (ix3 p s q)
      = atStep (F := Ideal) s.val (spikeTime (F := Ideal) (v0 (ix2 p q)) (v1 (ix2 (0 : Fin 1) q))) := by
  unfold k0_pay1
  dsimp only
  rw [sitofp_apply, extui_apply, cmpi_at, iota_single_apply, broadcast_middle_apply, sitofp_setWidth_bit,
    minsi_at, maxsi_at, fptosi_at, mulf_at, subf_at, mulf_at, shapeCast_self, broadcastTo_1b_ab_apply]
  rfl

/-- The same at any index of the block, by its three coordinates. -/
theorem stored_apply (v0 : Vec Ideal S128x128 .f32) (v1 : Vec Ideal S1x128 .f32) (j : S128x100x128.Idx) :
    k0_pay1 (F := Ideal) v0 v1 j
      = atStep (F := Ideal) (j 1).val (spikeTime (F := Ideal) (v0 (ix2 (j 0 : Fin 128) (j 2 : Fin 128))) (v1 (ix2 (0 : Fin 1) (j 2 : Fin 128)))) :=
  (congrArg (k0_pay1 (F := Ideal) v0 v1) (eq_ix3 j)).trans (stored_at v0 v1 (j 0) (j 1) (j 2))

/-! ## From the blocks to the array -/

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The spike indicator as a function of the two arrays the region finds: `x`, and the delays as one row. -/
abbrev ofRow (x : S256x4096.Idx → Elt Ideal .f32) (d : S1x4096.Idx → Elt Ideal .f32) : S256x100x4096.Idx → Elt Ideal .f32 :=
  fun i => atStep (F := Ideal) (i 1).val
    (spikeTime (F := Ideal) (x (ix2 (i 0 : Fin 256) (i 2 : Fin 4096))) (d (ix2 (0 : Fin 1) (i 2 : Fin 4096))))

/-- The index maps over the 64 grid points: `x`'s block moves with the output's on rows and columns, the delays'
    block with the output's columns on its one row, and the output's block always starts at time step 0. -/
theorem index_facts : ∀ t : Fin cfg0.N,
    win0_0.index t (0 : Fin 2) = win0_2.index t (0 : Fin 3)
    ∧ win0_0.index t (1 : Fin 2) = win0_2.index t (2 : Fin 3)
    ∧ win0_1.index t (0 : Fin 2) = 0
    ∧ win0_1.index t (1 : Fin 2) = win0_2.index t (2 : Fin 3)
    ∧ win0_2.index t (1 : Fin 3) = 0 :=
  (by decide +kernel : ∀ t : Fin grid0.N, _)

/-- Every (row block, column block) pair is some grid point's output block. -/
theorem index_onto : ∀ (q0 : Fin 2) (q2 : Fin 32), ∃ t : Fin cfg0.N, win0_2.index t = ![q0.val, 0, q2.val] :=
  (by decide +kernel : ∀ (q0 : Fin 2) (q2 : Fin 32), ∃ t : Fin grid0.N, win0_2.index t = ![q0.val, 0, q2.val])

/-- What point `t` writes back is block `t` of `ofRow` of the arrays as the region finds them: each loaded entry is
    the array's entry at the output index's row and column. -/
theorem flushed_eq (c : Dev nD) (t : Fin cfg0.N) :
    (dats m 0 c).flushed 2 t = ((cfg0.win 2).blk t).view.read (Elt Ideal) (ofRow (V m c main_arg0) (V m c main_v0)) := by
  show (cfg0.win 2).cut (grid0.coords t) ((dats m 0 c).after 2 t) = _
  rw [after0_2]
  unfold out0_2
  rw [View.canon_unit_zero zeros3]
  simp only [View.ld_unit_zero (S := S128x128) zeros2, View.ld_unit_zero (S := S1x128) zeros2]
  obtain ⟨e0, e1, e2, e3, e4⟩ := index_facts t
  funext j
  refine (stored_apply (iblk m c 0 t) (iblk m c 1 t) j).trans ?_
  have h1 : ((((cfg0.win 2).blk t).view.emb j) 1).val = (j 1).val := by
    show win0_2.index t (1 : Fin 3) * 100 + 1 * (j 1).val = (j 1).val
    omega
  have hx : ((cfg0.win 0).blk t).view.emb (ix2 (j 0 : Fin 128) (j 2 : Fin 128))
      = ix2 ((((cfg0.win 2).blk t).view.emb j) 0 : Fin 256) ((((cfg0.win 2).blk t).view.emb j) 2 : Fin 4096) := by
    funext a; apply Fin.ext
    match a with
    | ⟨0, _⟩ => show win0_0.index t (0 : Fin 2) * 128 + 1 * (j 0).val = win0_2.index t (0 : Fin 3) * 128 + 1 * (j 0).val; omega
    | ⟨1, _⟩ => show win0_0.index t (1 : Fin 2) * 128 + 1 * (j 2).val = win0_2.index t (2 : Fin 3) * 128 + 1 * (j 2).val; omega
  have hd : ((cfg0.win 1).blk t).view.emb (ix2 (0 : Fin 1) (j 2 : Fin 128))
      = ix2 (0 : Fin 1) ((((cfg0.win 2).blk t).view.emb j) 2 : Fin 4096) := by
    funext a; apply Fin.ext
    match a with
    | ⟨0, _⟩ => show win0_1.index t (0 : Fin 2) * 1 + 1 * 0 = 0; omega
    | ⟨1, _⟩ => show win0_1.index t (1 : Fin 2) * 128 + 1 * (j 2).val = win0_2.index t (2 : Fin 3) * 128 + 1 * (j 2).val; omega
  show atStep (F := Ideal) (j 1).val (spikeTime (F := Ideal)
        (V m c main_arg0 (((cfg0.win 0).blk t).view.emb (ix2 (j 0 : Fin 128) (j 2 : Fin 128))))
        (V m c main_v0 (((cfg0.win 1).blk t).view.emb (ix2 (0 : Fin 1) (j 2 : Fin 128)))))
      = atStep (F := Ideal) ((((cfg0.win 2).blk t).view.emb j) 1).val (spikeTime (F := Ideal)
        (V m c main_arg0 (ix2 ((((cfg0.win 2).blk t).view.emb j) 0 : Fin 256) ((((cfg0.win 2).blk t).view.emb j) 2 : Fin 4096)))
        (V m c main_v0 (ix2 (0 : Fin 1) ((((cfg0.win 2).blk t).view.emb j) 2 : Fin 4096))))
  rw [hx, hd, h1]
  rfl

/-- An index of the result array is in point `t`'s block iff each coordinate is in the block's range on its axis. -/
theorem mem_block (t : Fin cfg0.N) (i : S256x100x4096.Idx) :
    i ∈ ((cfg0.win 2).blk t).view.set ↔ ∀ a : Fin 3, win0_2.index t a * S128x100x128.size a ≤ (i a).val
      ∧ (i a).val < win0_2.index t a * S128x100x128.size a + S128x100x128.size a := by
  show i ∈ ((View.whole main_v1).slice (win0_2.rect t)).set ↔ _
  rw [View.set_slice_whole, Rect.mem_set_unit]
  exact Iff.rfl

/-- Every index of the result array is in some point's block: the point whose row block is `b / 128` and whose
    column block is `f / 128`. -/
theorem covered (i : S256x100x4096.Idx) :
    ∃ t : Fin cfg0.N, (cfg0.win 2).flush t = true ∧ i ∈ ((cfg0.win 2).blk t).view.set := by
  have hi0 : (i 0).val < 256 := (i 0).isLt
  have hi1 : (i 1).val < 100 := (i 1).isLt
  have hi2 : (i 2).val < 4096 := (i 2).isLt
  obtain ⟨t, ht⟩ := index_onto ⟨(i 0).val / 128, by omega⟩ ⟨(i 2).val / 128, by omega⟩
  have q0 : win0_2.index t (0 : Fin 3) = (i 0).val / 128 := congrFun ht 0
  have q1 : win0_2.index t (1 : Fin 3) = 0 := congrFun ht 1
  have q2 : win0_2.index t (2 : Fin 3) = (i 2).val / 128 := congrFun ht 2
  refine ⟨t, flush0_2 t, ?_⟩
  rw [mem_block]
  intro a
  match a with
  | ⟨0, _⟩ => show win0_2.index t (0 : Fin 3) * 128 ≤ (i 0).val ∧ (i 0).val < win0_2.index t (0 : Fin 3) * 128 + 128; omega
  | ⟨1, _⟩ => show win0_2.index t (1 : Fin 3) * 100 ≤ (i 1).val ∧ (i 1).val < win0_2.index t (1 : Fin 3) * 100 + 100; omega
  | ⟨2, _⟩ => show win0_2.index t (2 : Fin 3) * 128 ≤ (i 2).val ∧ (i 2).val < win0_2.index t (2 : Fin 3) * 128 + 128; omega

/-- So the result array ends holding `ofRow` of the arrays the region found. -/
theorem final (c : Dev nD) : (dats m 0 c).arrAt 2 cfg0.N = ofRow (V m c main_arg0) (V m c main_v0) :=
  (dats m 0 c).arrAt_eq_of_cover 2 _ (fun t _ => flushed_eq m c t) covered

/-! ## The arrays the region finds, in terms of the arguments -/

/-- The delays as the region finds them: the argument reshaped to one row. -/
theorem delays_row (c : Dev nD) :
    (V m c main_v0 : S1x4096.Idx → Elt Ideal .f32)
      = shapeCast S1x4096 (m ((c : Thread nD τ).loc main_arg1)) Facts₀.shapeCasts_S4096_S1x4096 := by
  dsimp only [V, hostOps0]; after_results; rfl

/-- Hence the function of the region's arrays is `spikes` of the two arguments. -/
theorem ofRow_eq (c : Dev nD) :
    ofRow (V m c main_arg0) (V m c main_v0)
      = spikes (F := Ideal) (m ((c : Thread nD τ).loc main_arg0)) (m ((c : Thread nD τ).loc main_arg1)) := by
  funext i
  have hd : V m c main_v0 (ix2 (0 : Fin 1) (i 2 : Fin 4096)) = m ((c : Thread nD τ).loc main_arg1) (ix1 (i 2 : Fin 4096)) := by
    rw [delays_row]; exact shapeCast_a_1a_apply _ _ 0 _
  show atStep (F := Ideal) (i 1).val (spikeTime (F := Ideal) (V m c main_arg0 (ix2 (i 0 : Fin 256) (i 2 : Fin 4096)))
      (V m c main_v0 (ix2 (0 : Fin 1) (i 2 : Fin 4096)))) = _
  rw [hd, V_main_arg0]
  rfl

/-! ## The run, read -/

/-- Every weakly fair execution of the kernel program terminates with the result array at `spikes` of the arguments
    and the arguments unchanged. -/
theorem run : θ_run defs (onTc (τ := τ) (main (F := Ideal))) ⟨m, fun _ => 0, ρ⟩ fun r => ∀ c : Dev nD,
      r.2.mem ((c : Thread nD τ).loc main_v1)
        = spikes (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (ofRow_eq m c)), (h c).2⟩)
    (Cert.KernelIdeal.Value.run_blocks m ρ)

end Cert.KernelIdeal.Spikes

end
-- ==== Proof.ReferenceSpikes.lean ====
/-
  The reference's result is the one-hot spike-time function of its arguments.

  The reference multiplies `x` by the delays broadcast along the rows, subtracts from 1, scales by 99, converts to a
  signed 32-bit integer, clips (a maximum with 0 then a minimum with 99), and compares with the time step broadcast
  over the other two axes; the one-bit result is read as an unsigned integer. Read at an index (b, t, f), every
  broadcast just selects coordinates, so the value there is `atStep t (spikeTime x[b,f] d[f])`.
-/
import proofs.«111063_j78632261255776_1_alg».proof.Proof.Gen.ReferenceIdeal.Read
import proofs.«111063_j78632261255776_1_alg».proof.Proof.Spikes

noncomputable section

namespace Cert.ReferenceIdeal.Spikes

open Cert.ReferenceIdeal Cert.ReferenceIdeal.Read Idealize.ShloMosaic Idealize.ShloMosaic.ValueIdx Cert.Spikes

variable {F : FTy → Type} [FloatOps F]

/-- The two broadcasts of the clipped spike times (a unit time axis, then 100 time steps) read entry (b, f) at (b, t, f). -/
theorem idx_rows (i : S256x100x4096.Idx) :
    idx_main_v11 (idx_main_v13 i) = (ix2 (i 0 : Fin 256) (i 2 : Fin 4096) : S256x4096.Idx) :=
  funext fun a => Fin.ext (by match a with | ⟨0, _⟩ => rfl | ⟨1, _⟩ => rfl)

/-- The two broadcasts of the delays (a unit row axis, then 256 rows) read delay f at (b, f). -/
theorem idx_delay (k : S256x4096.Idx) : idx_main_v0 (idx_main_v1 k) = (ix1 (k 1 : Fin 4096) : S4096.Idx) :=
  funext fun a => Fin.ext (by match a with | ⟨0, _⟩ => rfl)

/-- The time step's three broadcasts read coordinate t at (b, t, f). -/
theorem idx_step (i : S256x100x4096.Idx) : ((idx_main_v10 (idx_main_v12 i)) 0).val = (i 1).val := rfl

/-- The reference's last stage, index by index, is `spikes` of the two arguments. -/
theorem ref_eq (x0 : (⟨S256x4096, .f32⟩ : BufTy).Contents (Elt F)) (x1 : (⟨S4096, .f32⟩ : BufTy).Contents (Elt F)) :
    val_main_v15 (F := F) x0 x1 = spikes x0 x1 := by
  funext i
  rw [val_main_v15_apply, val_main_v14_apply, val_main_v12_apply, val_main_v10_apply, val_main_v9_apply,
    val_main_v13_apply, val_main_v11_apply, val_main_v8_apply, val_main_call0_v4_apply, val_main_call0_v3_apply,
    val_main_c_1_apply, val_main_call0_v2_apply, val_main_call0_v1_apply, val_main_call0_v0_apply, val_main_c_apply,
    val_main_v7_apply, val_main_v6_apply, val_main_v4_apply, val_main_v3_apply, val_main_cst_apply,
    val_main_v2_apply, val_main_v1_apply, val_main_v0_apply, val_main_v5_apply, val_main_cst_0_apply,
    idx_rows, idx_delay, idx_step]
  rfl

end Cert.ReferenceIdeal.Spikes

end
-- ==== Proof.lean ====
/-
  The certificate of the one-hot spike-time kernel against its jnp reference.

  Both programs map `x` : [256, 4096] and delays `d` : [4096] to the array of shape [256, 100, 4096] that holds, at
  (b, t, f), 1 when t is the spike time of entry (b, f) — (1 - x[b,f] * d[f]) * 99 converted to a signed 32-bit integer
  and clipped to [0, 99] — and 0 otherwise (`Cert.Spikes.spikes`). The kernel computes it block by block on a 2 x 32
  grid and its 64 output blocks tile the result (Proof/KernelSpikes.lean); the reference computes it with whole-array
  broadcasts (Proof/ReferenceSpikes.lean). The two agree operation by operation, so the equality needs no algebraic
  law and the finiteness of the inputs is not used; the only value fact is that a single bit reads 0 or 1 whether it
  is converted as an unsigned integer or zero-extended and converted as a signed one.

  The three programs run and leave their arguments unchanged: the two kernels by their frame proofs, the reference by
  its run. The idealization rewrote no operation, so there is nothing to preserve.
-/
import proofs.«111063_j78632261255776_1_alg».proof.Defs
import proofs.«111063_j78632261255776_1_alg».proof.Proof.Gen.Kernel
import proofs.«111063_j78632261255776_1_alg».proof.Proof.Gen.Kernel.Skeleton
import proofs.«111063_j78632261255776_1_alg».proof.Proof.Gen.Kernel.Launch
import proofs.«111063_j78632261255776_1_alg».proof.Proof.Gen.Kernel.Points
import proofs.«111063_j78632261255776_1_alg».proof.Proof.Gen.Kernel.Frame
import proofs.«111063_j78632261255776_1_alg».proof.Proof.Gen.KernelIdeal
import proofs.«111063_j78632261255776_1_alg».proof.Proof.Gen.KernelIdeal.Skeleton
import proofs.«111063_j78632261255776_1_alg».proof.Proof.Gen.KernelIdeal.Launch
import proofs.«111063_j78632261255776_1_alg».proof.Proof.Gen.KernelIdeal.Points
import proofs.«111063_j78632261255776_1_alg».proof.Proof.Gen.KernelIdeal.Frame
import proofs.«111063_j78632261255776_1_alg».proof.Proof.Gen.ReferenceIdeal
import proofs.«111063_j78632261255776_1_alg».proof.Proof.Gen.Pre_finite_inputs
import proofs.«111063_j78632261255776_1_alg».proof.Proof.Gen.KernelIdeal.Value
import proofs.«111063_j78632261255776_1_alg».proof.Proof.Gen.ReferenceIdeal.Run
import proofs.«111063_j78632261255776_1_alg».proof.Proof.Gen.ReferenceIdeal.Read
import proofs.«111063_j78632261255776_1_alg».proof.Proof.KernelSpikes
import proofs.«111063_j78632261255776_1_alg».proof.Proof.ReferenceSpikes
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on `x` and the delays, the kernel's result array and the
    reference's both end at `spikes` of those two arrays. -/
theorem algebraic : Cert.algebraic_KernelIdeal_ReferenceIdeal := by
  intro m ρ m' ρ' _ hagree
  refine ⟨_, Cert.KernelIdeal.Spikes.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Spikes.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
